-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v42)) (v3 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_v51) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S50257x1024 : Shape := ⟨2, ![50257, 1024]⟩
abbrev S50257 : Shape := ⟨1, ![50257]⟩
abbrev S8192 : Shape := ⟨1, ![8192]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S50257 : S_.BroadcastsInDim S50257 (![] : Fin 0 → Fin S50257.rank)
  reducesTo_S50257_S_d0 : S50257.ReducesTo [0] S_

variable [Facts]

def fn_part1 {F : FTy → Type} [FloatOps F] (main_v13 : IVec S_ 1) (main_v16 : IVec S50257 1) : IVec S_ 1 :=
  let main_c_5 : IVec S_ 1 := constantI S_ 1 1#1
  let main_v17 : IVec S_ 1 := (fun x v => Host.reduce IntOp.andi x v reducesTo_S50257_S_d0 h_S_) main_v16 main_c_5
  let main_v18 : IVec S_ 1 := andi main_v13 main_v17
  main_v18

def fn {F : FTy → Type} [FloatOps F] (main_arg0 : FVec F S8192x1024 .f32) (main_arg1 : FVec F S50257x1024 .f32) (main_arg2 : FVec F S50257 .f32) (main_arg3 : FVec F S50257 .f32) (main_arg4 : IVec S8192 32) (main_arg5 : IVec S4096 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S50257x1024 .f32 := Host.absf main_arg1
  let main_cst_0 : FVec F S_ .f32 := constant S_ .f32 0x7F800000#32
  let main_v5 : FVec F S50257x1024 .f32 := broadcastInDim S50257x1024 ![] bcast_S_S50257x1024 main_cst_0
  let main_v6 : IVec S50257x1024 1 := cmpf .olt main_v4 main_v5
  let main_c_1 : IVec S_ 1 := constantI S_ 1 1#1
  let main_v7 : IVec S_ 1 := (fun x v => Host.reduce IntOp.andi x v reducesTo_S50257x1024_S_d0_1 h_S_) main_v6 main_c_1
  let main_v8 : IVec S_ 1 := andi main_v3 main_v7
  let main_v9 : FVec F S50257 .f32 := Host.absf main_arg2
  let main_cst_2 : FVec F S_ .f32 := constant S_ .f32 0x7F800000#32
  let main_v10 : FVec F S50257 .f32 := broadcastInDim S50257 ![] bcast_S_S50257 main_cst_2
  let main_v11 : IVec S50257 1 := cmpf .olt main_v9 main_v10
  let main_c_3 : IVec S_ 1 := constantI S_ 1 1#1
  let main_v12 : IVec S_ 1 := (fun x v => Host.reduce IntOp.andi x v reducesTo_S50257_S_d0 h_S_) main_v11 main_c_3
  let main_v13 : IVec S_ 1 := andi main_v8 main_v12
  let main_v14 : FVec F S50257 .f32 := Host.absf main_arg3
  let main_cst_4 : FVec F S_ .f32 := constant S_ .f32 0x7F800000#32
  let main_v15 : FVec F S50257 .f32 := broadcastInDim S50257 ![] bcast_S_S50257 main_cst_4
  let main_v16 : IVec S50257 1 := cmpf .olt main_v14 main_v15
  fn_part1 (F := F) main_v13 main_v16
-- ==== Kernel.lean ====
abbrev S8192x1024 : Shape := ⟨2, ![8192, 1024]⟩
abbrev S50257x1024 : Shape := ⟨2, ![50257, 1024]⟩
abbrev S50257 : Shape := ⟨1, ![50257]⟩
abbrev S8192 : Shape := ⟨1, ![8192]⟩
abbrev S4096 : Shape := ⟨1, ![4096]⟩
abbrev S_ : Shape := ⟨0, ![]⟩
abbrev S8192x1 : Shape := ⟨2, ![8192, 1]⟩
abbrev S4096x1 : Shape := ⟨2, ![4096, 1]⟩
abbrev S4096x1024 : Shape := ⟨2, ![4096, 1024]⟩
abbrev S1x4096 : Shape := ⟨2, ![1, 4096]⟩
abbrev S8192x4096 : Shape := ⟨2, ![8192, 4096]⟩
abbrev S1024x1024 : Shape := ⟨2, ![1024, 1024]⟩
abbrev S1x1024 : Shape := ⟨2, ![1, 1024]⟩

abbrev nBuf : Space → Nat
  | .hbm => 71
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S50257x1024, .f32⟩
  | .hbm, ⟨2, _⟩ => ⟨S50257, .f32⟩
  | .hbm, ⟨3, _⟩ => ⟨S50257, .f32⟩
  | .hbm, ⟨4, _⟩ => ⟨S8192, .i32⟩
  | .hbm, ⟨5, _⟩ => ⟨S4096, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192x1024, .f32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S8192x1, .i32⟩
  | .hbm, ⟨23, _⟩ => ⟨S8192, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S8192, .f32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S4096x1024, .f32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S4096x1, .i32⟩
  | .hbm, ⟨55, _⟩ => ⟨S4096, .f32⟩
  | .hbm, ⟨56, _⟩ => ⟨S8192x1024, .bf16⟩
  | .hbm, ⟨57, _⟩ => ⟨S4096x1024, .bf16⟩
  | .hbm, ⟨58, _⟩ => ⟨S1x4096, .f32⟩
  | .hbm, ⟨59, _⟩ => ⟨S8192x4096, .f32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096, .f32⟩
  | .hbm, ⟨69, _⟩ => ⟨S1x4096, .f32⟩
  | .hbm, ⟨70, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x1024_S8192_d1 : S8192x1024.ReducesTo [1] S8192
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S50257x1024_S8192x1_S8192x1024_1_0_n_n_0_1_11024_wf : GatherDims.WF S50257x1024 S8192x1 S8192x1024 [1] [0] [] [0] [] 1 ![1, 1024]
  gather_S50257_S8192x1_S8192_n_0_n_n_0_1_1_wf : GatherDims.WF S50257 S8192x1 S8192 [] [0] [] [0] [] 1 ![1]
  gather_S50257x1024_S4096x1_S4096x1024_1_0_n_n_0_1_11024_wf : GatherDims.WF S50257x1024 S4096x1 S4096x1024 [1] [0] [] [0] [] 1 ![1, 1024]
  gather_S50257_S4096x1_S4096_n_0_n_n_0_1_1_wf : GatherDims.WF S50257 S4096x1 S4096 [] [0] [] [0] [] 1 ![1]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S50257x1024_S8192x1_S8192x1024_1_0_n_n_0_1_11024 : GatherDims S50257x1024 S8192x1 S8192x1024 where
  offsetDims := [1]
  collapsedSliceDims := [0]
  operandBatchingDims := []
  startIndicesBatchingDims := []
  startIndexMap := [0]
  indexVectorDim := 1
  sliceSizes := ![1, 1024]
  wf := gather_S50257x1024_S8192x1_S8192x1024_1_0_n_n_0_1_11024_wf
def gather_S50257_S8192x1_S8192_n_0_n_n_0_1_1 : GatherDims S50257 S8192x1 S8192 where
  offsetDims := []
  collapsedSliceDims := [0]
  operandBatchingDims := []
  startIndicesBatchingDims := []
  startIndexMap := [0]
  indexVectorDim := 1
  sliceSizes := ![1]
  wf := gather_S50257_S8192x1_S8192_n_0_n_n_0_1_1_wf
def gather_S50257x1024_S4096x1_S4096x1024_1_0_n_n_0_1_11024 : GatherDims S50257x1024 S4096x1 S4096x1024 where
  offsetDims := [1]
  collapsedSliceDims := [0]
  operandBatchingDims := []
  startIndicesBatchingDims := []
  startIndexMap := [0]
  indexVectorDim := 1
  sliceSizes := ![1, 1024]
  wf := gather_S50257x1024_S4096x1_S4096x1024_1_0_n_n_0_1_11024_wf
def gather_S50257_S4096x1_S4096_n_0_n_n_0_1_1 : GatherDims S50257 S4096x1 S4096 where
  offsetDims := []
  collapsedSliceDims := [0]
  operandBatchingDims := []
  startIndicesBatchingDims := []
  startIndexMap := [0]
  indexVectorDim := 1
  sliceSizes := ![1]
  wf := gather_S50257_S4096x1_S4096_n_0_n_n_0_1_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v39) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S50257x1024 : Shape := ⟨2, ![50257, 1024]⟩
abbrev S50257 : Shape := ⟨1, ![50257]⟩
abbrev S8192 : Shape := ⟨1, ![8192]⟩
abbrev S4096 : Shape := ⟨1, ![4096]⟩
abbrev S_ : Shape := ⟨0, ![]⟩
abbrev S8192x1 : Shape := ⟨2, ![8192, 1]⟩
abbrev S4096x1 : Shape := ⟨2, ![4096, 1]⟩
abbrev S4096x1024 : Shape := ⟨2, ![4096, 1024]⟩
abbrev S8192x4096 : Shape := ⟨2, ![8192, 4096]⟩
abbrev S1x4096 : Shape := ⟨2, ![1, 4096]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S50257x1024, .f32⟩
  | .hbm, ⟨2, _⟩ => ⟨S50257, .f32⟩
  | .hbm, ⟨3, _⟩ => ⟨S50257, .f32⟩
  | .hbm, ⟨4, _⟩ => ⟨S8192, .i32⟩
  | .hbm, ⟨5, _⟩ => ⟨S4096, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192x1024, .f32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S8192x1, .i32⟩
  | .hbm, ⟨23, _⟩ => ⟨S8192, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S8192, .f32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S4096x1024, .f32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S4096x1, .i32⟩
  | .hbm, ⟨55, _⟩ => ⟨S4096, .f32⟩
  | .hbm, ⟨56, _⟩ => ⟨S8192x4096, .f32⟩
  | .hbm, ⟨57, _⟩ => ⟨S1x4096, .f32⟩
  | .hbm, ⟨58, _⟩ => ⟨S8192x4096, .f32⟩
  | .hbm, ⟨59, _⟩ => ⟨S8192x4096, .f32⟩
  | .hbm, ⟨60, _⟩ => ⟨S8192x4096, .f32⟩
  | .hbm, ⟨61, _⟩ => ⟨S_, .i32⟩
  | .hbm, ⟨62, _⟩ => ⟨S4096, .i32⟩
  | .hbm, ⟨63, _⟩ => ⟨S4096, .i1⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S4096x1, .i32⟩
  | .hbm, ⟨69, _⟩ => ⟨S4096, .f32⟩
  | .hbm, ⟨70, _⟩ => ⟨S1x4096, .f32⟩
  | .hbm, ⟨71, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x1024_S8192_d1 : S8192x1024.ReducesTo [1] S8192
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S50257x1024_S8192x1_S8192x1024_1_0_n_n_0_1_11024_wf : GatherDims.WF S50257x1024 S8192x1 S8192x1024 [1] [0] [] [0] [] 1 ![1, 1024]
  gather_S50257_S8192x1_S8192_n_0_n_n_0_1_1_wf : GatherDims.WF S50257 S8192x1 S8192 [] [0] [] [0] [] 1 ![1]
  gather_S50257x1024_S4096x1_S4096x1024_1_0_n_n_0_1_11024_wf : GatherDims.WF S50257x1024 S4096x1 S4096x1024 [1] [0] [] [0] [] 1 ![1, 1024]
  gather_S50257_S4096x1_S4096_n_0_n_n_0_1_1_wf : GatherDims.WF S50257 S4096x1 S4096 [] [0] [] [0] [] 1 ![1]
  dot_S8192x1024_S4096x1024_S8192x4096_1_1_0_0_n_n_wf : DotDims.WF S8192x1024 S4096x1024 S8192x4096 [1] [1] [0] [0] [] []

variable [Facts₀]

def gather_S50257x1024_S8192x1_S8192x1024_1_0_n_n_0_1_11024 : GatherDims S50257x1024 S8192x1 S8192x1024 where
  offsetDims := [1]
  collapsedSliceDims := [0]
  operandBatchingDims := []
  startIndicesBatchingDims := []
  startIndexMap := [0]
  indexVectorDim := 1
  sliceSizes := ![1, 1024]
  wf := gather_S50257x1024_S8192x1_S8192x1024_1_0_n_n_0_1_11024_wf
def gather_S50257_S8192x1_S8192_n_0_n_n_0_1_1 : GatherDims S50257 S8192x1 S8192 where
  offsetDims := []
  collapsedSliceDims := [0]
  operandBatchingDims := []
  startIndicesBatchingDims := []
  startIndexMap := [0]
  indexVectorDim := 1
  sliceSizes := ![1]
  wf := gather_S50257_S8192x1_S8192_n_0_n_n_0_1_1_wf
def gather_S50257x1024_S4096x1_S4096x1024_1_0_n_n_0_1_11024 : GatherDims S50257x1024 S4096x1 S4096x1024 where
  offsetDims := [1]
  collapsedSliceDims := [0]
  operandBatchingDims := []
  startIndicesBatchingDims := []
  startIndexMap := [0]
  indexVectorDim := 1
  sliceSizes := ![1, 1024]
  wf := gather_S50257x1024_S4096x1_S4096x1024_1_0_n_n_0_1_11024_wf
def gather_S50257_S4096x1_S4096_n_0_n_n_0_1_1 : GatherDims S50257 S4096x1 S4096 where
  offsetDims := []
  collapsedSliceDims := [0]
  operandBatchingDims := []
  startIndicesBatchingDims := []
  startIndexMap := [0]
  indexVectorDim := 1
  sliceSizes := ![1]
  wf := gather_S50257_S4096x1_S4096_n_0_n_n_0_1_1_wf
def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.HostSide.lean ====
/-
  The kernel program's host operations, read. Before the grid runs, the host gathers the noise rows of the weight
  table and the noise entries of the bias (an index below zero is first moved up by the table's 50257 rows), narrows
  the input and the noise rows to the short float format, and recasts the noise biases as a one-row matrix: these are
  the three arrays the grid's windows read. The same host prefix also computes the two per-target results, which no
  later line writes; after the grid the host gathers the noise entries of the unigram table and spreads them over all
  rows, reading only argument arrays, which the grid does not touch.
-/
import proofs.«166115_j32744830664773_1_alg».proof.Proof.Gen.KernelIdeal.Frame
import Idealize.ShloMosaic.Lib.StableHlo.Run

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

/-- The noise indices as the gathers take them: an index below zero moved up by 50257, as a one-column matrix. -/
def noiseIdx (x5 : (⟨S4096, .i32⟩ : BufTy).Contents (Elt F)) : (⟨S4096x1, .i32⟩ : BufTy).Contents (Elt F) :=
  broadcastInDim S4096x1 ![0] bcast_S4096_S4096x1_0
    (select (cmpi .slt x5 (broadcastInDim S4096 ![] bcast_S_S4096 (constantI S_ 32 0#32)))
      (addi x5 (broadcastInDim S4096 ![] bcast_S_S4096 (constantI S_ 32 50257#32))) x5)

/-- The noise rows of the weight table. -/
def noiseRows (x1 : (⟨S50257x1024, .f32⟩ : BufTy).Contents (Elt F)) (x5 : (⟨S4096, .i32⟩ : BufTy).Contents (Elt F)) :
    (⟨S4096x1024, .f32⟩ : BufTy).Contents (Elt F) :=
  Host.gather gather_S50257x1024_S4096x1_S4096x1024_1_0_n_n_0_1_11024 x1 (noiseIdx x5)

/-- The noise entries of a per-row table (the bias, the unigram probabilities). -/
def noiseEntries (x : (⟨S50257, .f32⟩ : BufTy).Contents (Elt F)) (x5 : (⟨S4096, .i32⟩ : BufTy).Contents (Elt F)) :
    (⟨S4096, .f32⟩ : BufTy).Contents (Elt F) :=
  Host.gather gather_S50257_S4096x1_S4096_n_0_n_n_0_1_1 x (noiseIdx x5)

/-- The noise entries of the unigram table spread over all 8192 rows: the program's last result. -/
def noiseProb (x3 : (⟨S50257, .f32⟩ : BufTy).Contents (Elt F)) (x5 : (⟨S4096, .i32⟩ : BufTy).Contents (Elt F)) :
    (⟨S8192x4096, .f32⟩ : BufTy).Contents (Elt F) :=
  broadcastInDim S8192x4096 ![0, 1] bcast_S1x4096_S8192x4096_0_1
    (broadcastInDim S1x4096 ![1] bcast_S4096_S1x4096_1 (noiseEntries x3 x5))

variable (m : (ℓ : Loc nD τ sig) → Buf (Elt F) ℓ) (ρ : Dev nD → PrngReg)

/-! ## The three arrays the windows read -/

set_option maxHeartbeats 4000000 in
/-- Window 0's array: the input, narrowed. -/
theorem entry_input (c : Dev nD) :
    V m c main_v39 = truncf .bf16 (m ((c : Thread nD τ).loc main_arg0)) bitsLt_bf16_f32 := by
  show StableHlo.after hostOps0 (fun b => m (c, b)) (Proc.devRef .tc main_v39) = _
  after_results <;> rfl

set_option maxHeartbeats 4000000 in
/-- Window 1's array: the noise rows, narrowed. -/
theorem entry_noise (c : Dev nD) :
    V m c main_v40
      = truncf .bf16 (noiseRows (m ((c : Thread nD τ).loc main_arg1)) (m ((c : Thread nD τ).loc main_arg5))) bitsLt_bf16_f32 := by
  show StableHlo.after hostOps0 (fun b => m (c, b)) (Proc.devRef .tc main_v40) = _
  after_results <;> rfl

set_option maxHeartbeats 4000000 in
/-- Window 2's array: the noise biases as one row. -/
theorem entry_bias (c : Dev nD) :
    V m c main_v41
      = shapeCast S1x4096 (noiseEntries (m ((c : Thread nD τ).loc main_arg2)) (m ((c : Thread nD τ).loc main_arg5)))
          shapeCasts_S4096_S1x4096 := by
  show StableHlo.after hostOps0 (fun b => m (c, b)) (Proc.devRef .tc main_v41) = _
  after_results <;> rfl

/-! ## The results the host computes -/

/-- The lines after the grid write neither per-target result, and the grid's arrays are not them. -/
theorem tail_target_score (c : Dev nD) :
    Pipeline.afterTail₀ cfgs (dats m) 0 (V0 m) [hostOps1] c main_v17 = V m c main_v17 := by
  unfold Pipeline.afterTail₀
  show StableHlo.after hostOps1 _ (Proc.devRef .tc main_v17) = _
  after_results
  exact Pipeline.withArrays_of_ne _ c (V0 m c) _ main_v17 (by exact (by decide : ∀ w, Pipeline.arrRef spec0 w ≠ main_v17))

theorem tail_target_prob (c : Dev nD) :
    Pipeline.afterTail₀ cfgs (dats m) 0 (V0 m) [hostOps1] c main_v24 = V m c main_v24 := by
  unfold Pipeline.afterTail₀
  show StableHlo.after hostOps1 _ (Proc.devRef .tc main_v24) = _
  after_results
  exact Pipeline.withArrays_of_ne _ c (V0 m c) _ main_v24 (by exact (by decide : ∀ w, Pipeline.arrRef spec0 w ≠ main_v24))

/-- The last result: the lines after the grid read two argument arrays, which are as launched. -/
theorem tail_noise_prob (c : Dev nD) :
    Pipeline.afterTail₀ cfgs (dats m) 0 (V0 m) [hostOps1] c main_v51
      = noiseProb (m ((c : Thread nD τ).loc main_arg3)) (m ((c : Thread nD τ).loc main_arg5)) := by
  unfold Pipeline.afterTail₀
  show StableHlo.after hostOps1 _ (Proc.devRef .tc main_v51) = _
  after_results
  rw [Pipeline.withArrays_of_ne _ c (V0 m c) _ main_arg3 (by exact (by decide : ∀ w, Pipeline.arrRef spec0 w ≠ main_arg3)),
    Pipeline.withArrays_of_ne _ c (V0 m c) _ main_arg5 (by exact (by decide : ∀ w, Pipeline.arrRef spec0 w ≠ main_arg5))]
  show broadcastInDim S8192x4096 ![0, 1] bcast_S1x4096_S8192x4096_0_1 (broadcastInDim S1x4096 ![1] bcast_S4096_S1x4096_1
      (Host.gather gather_S50257_S4096x1_S4096_n_0_n_n_0_1_1 (V m c main_arg3) (broadcastInDim S4096x1 ![0] bcast_S4096_S4096x1_0
        (select (cmpi .slt (V m c main_arg5) (broadcastInDim S4096 ![] bcast_S_S4096 (constantI S_ 32 0#32)))
          (addi (V m c main_arg5) (broadcastInDim S4096 ![] bcast_S_S4096 (constantI S_ 32 50257#32))) (V m c main_arg5))))) = _
  rw [V_main_arg3, V_main_arg5]
  rfl

end Cert.KernelIdeal.Hand

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.Payload.lean ====
/-
  What one grid point computes. The body multiplies its 1024 input rows by its 1024 noise rows (the second operand
  is transposed before the product, so the product contracts the columns of both blocks), adds the block's row of
  biases to every row, and takes the exponential. Entry (p, q) of the stored block is therefore

      exp ( sum over h of x(p, h) · w(q, h)  +  b(0, q) )

  where x, w and b are the three loaded blocks.
-/
import proofs.«166115_j32744830664773_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«166115_j32744830664773_1_alg».proof.Proof.LibDot

noncomputable section

open scoped BigOperators

namespace Cert.KernelIdeal.Hand

open Idealize.ShloMosaic Idealize.ShloMosaic.ValueIdx Cert.KernelIdeal Cert.KernelIdeal.Gen

/-- The transposed noise block reads, at (h, q), the noise block at (q, h). -/
theorem noise_transposed_at (w : Vec Ideal S1024x1024 .bf16) (h q : Fin 1024) :
    transpose S1024x1024 [1, 0] (shapeCast S1024x1024 w shapeCasts_S1024x1024_S1024x1024) transposes_S1024x1024_p1_0_S1024x1024
      (ix2 h q) = w (ix2 q h) := by
  rw [transpose_ix2_apply, shapeCast_self]

/-- The bias row spread over all rows reads, at (p, q), the bias row's entry q. -/
theorem bias_spread_at (b : Vec Ideal S1x1024 .f32) (p q : Fin 1024) :
    broadcastTo S1024x1024 (shapeCast S1x1024 b shapeCasts_S1x1024_S1x1024) broadcasts_S1x1024_S1024x1024 (ix2 p q)
      = b (ix2 (0 : Fin 1) q) := by
  rw [shapeCast_self]
  refine broadcastTo_apply b broadcasts_S1x1024_S1024x1024 _ (ix2 (0 : Fin 1) q) fun a => ?_
  match a with
  | ⟨0, _⟩ => show 0 = if (1 : Nat) = 1 then 0 else p.val; rw [if_pos rfl]
  | ⟨1, _⟩ => show q.val = if (1024 : Nat) = 1 then 0 else q.val; rw [if_neg (by decide)]

/-- Entry (p, q) of the block a grid point stores. -/
theorem stored_at (x w : Vec Ideal S1024x1024 .bf16) (b : Vec Ideal S1x1024 .f32) (p q : Fin 1024) :
    k0_pay1 (F := Ideal) x w b (ix2 p q)
      = Ideal.exp ((∑ h : Fin 1024, x (ix2 p h) * w (ix2 q h)) + b (ix2 (0 : Fin 1) q)) := by
  unfold k0_pay1
  show Ideal.exp (FloatOps.matmul (F := Ideal) dot_S1024x1024_S1024x1024_S1024x1024_1_0_0_1_n_n none _ _
      (constant S1024x1024 .f32 0x00000000#32) (ix2 p q) + _) = _
  rw [Cert.LibDot.matmul_zero_at dot_S1024x1024_S1024x1024_S1024x1024_1_0_0_1_n_n rfl rfl rfl rfl rfl rfl none _ _ p q,
    bias_spread_at b p q, shapeCast_self]
  exact congrArg Ideal.exp (congrArg (· + b (ix2 (0 : Fin 1) q))
    (Finset.sum_congr rfl fun h _ => congrArg (x (ix2 p h) * ·) (noise_transposed_at w h q)))

end Cert.KernelIdeal.Hand

end
-- ==== Proof.Blocks.lean ====
/-
  From blocks to the array. The grid is 8 × 4: point (i, j) reads input rows 1024·i … 1024·i + 1023, noise rows
  1024·j … 1024·j + 1023 and the biases of those noise rows, and writes block (i, j) of the [8192, 4096] result. So
  what point (i, j) writes is the restriction, to its block, of ONE function of the three arrays the windows read:
  entry (n, k) is exp( sum over h of a(n, h) · w(k, h) + b(0, k) ). The 32 blocks tile the result, hence the result
  array ends as that function everywhere.
-/
import proofs.«166115_j32744830664773_1_alg».proof.Proof.Gen.KernelIdeal.Frame
import proofs.«166115_j32744830664773_1_alg».proof.Proof.Payload
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ)

theorem origin2 : (![0, 0] : Fin 2 → Nat) = fun _ => 0 := funext fun a => by fin_cases a <;> rfl

/-- Entry (n, k) of the grid's result as a function of the three arrays its windows read. -/
def gridScores (a : Vec Ideal S8192x1024 .bf16) (w : Vec Ideal S4096x1024 .bf16) (b : Vec Ideal S1x4096 .f32) :
    Vec Ideal S8192x4096 .f32 :=
  fun i => Ideal.exp ((∑ h : Fin 1024, a (ix2 (i 0) h) * w (ix2 (i 1) h)) + b (ix2 (0 : Fin 1) (i 1)))

/-- The arrays the windows read, under names of their literal types. -/
abbrev inArr (c : Dev nD) : Vec Ideal S8192x1024 .bf16 := V m c main_v39
abbrev noiseArr (c : Dev nD) : Vec Ideal S4096x1024 .bf16 := V m c main_v40
abbrev biasArr (c : Dev nD) : Vec Ideal S1x4096 .f32 := V m c main_v41

/-- The index maps over the grid: the input's block row is the output's block row, the noise rows' and the bias's
    block is the output's block column, and the output's block indices stay inside 8 × 4. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every block of the 8 × 4 tiling is some point's. -/
theorem block_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-- The input block at point t, entry (p, h), is the input array at row (block row)·1024 + p. -/
theorem in_block_at (c : Dev nD) (t : Fin cfg0.N) (p h : Fin 1024) (k : S8192x1024.Idx)
    (hk0 : (k 0).val = win0_0.index t (0 : Fin 2) * 1024 + p.val) (hk1 : (k 1).val = win0_0.index t (1 : Fin 2) * 1024 + h.val) :
    (iblk m c 0 t : Vec Ideal S1024x1024 .bf16) (ix2 p h) = inArr m c k := by
  unfold iblk
  rw [View.read_apply]
  show V m c main_v39 _ = V m c main_v39 _
  congr 1
  funext a
  apply Fin.ext
  match a with
  | ⟨0, _⟩ => show win0_0.index t (0 : Fin 2) * 1024 + 1 * p.val = (k 0).val; omega
  | ⟨1, _⟩ => show win0_0.index t (1 : Fin 2) * 1024 + 1 * h.val = (k 1).val; omega

/-- The noise block at point t, entry (q, h). -/
theorem noise_block_at (c : Dev nD) (t : Fin cfg0.N) (q h : Fin 1024) (k : S4096x1024.Idx)
    (hk0 : (k 0).val = win0_1.index t (0 : Fin 2) * 1024 + q.val) (hk1 : (k 1).val = win0_1.index t (1 : Fin 2) * 1024 + h.val) :
    (iblk m c 1 t : Vec Ideal S1024x1024 .bf16) (ix2 q h) = noiseArr m c k := by
  unfold iblk
  rw [View.read_apply]
  show V m c main_v40 _ = V m c main_v40 _
  congr 1
  funext a
  apply Fin.ext
  match a with
  | ⟨0, _⟩ => show win0_1.index t (0 : Fin 2) * 1024 + 1 * q.val = (k 0).val; omega
  | ⟨1, _⟩ => show win0_1.index t (1 : Fin 2) * 1024 + 1 * h.val = (k 1).val; omega

/-- The bias block at point t, entry (0, q). -/
theorem bias_block_at (c : Dev nD) (t : Fin cfg0.N) (q : Fin 1024) (k : S1x4096.Idx)
    (hk0 : (k 0).val = win0_2.index t (0 : Fin 2) * 1 + 0) (hk1 : (k 1).val = win0_2.index t (1 : Fin 2) * 1024 + q.val) :
    (iblk m c 2 t : Vec Ideal S1x1024 .f32) (ix2 (0 : Fin 1) q) = biasArr m c k := by
  unfold iblk
  rw [View.read_apply]
  show V m c main_v41 _ = V m c main_v41 _
  congr 1
  funext a
  apply Fin.ext
  match a with
  | ⟨0, _⟩ => show win0_2.index t (0 : Fin 2) * 1 + 1 * 0 = (k 0).val; omega
  | ⟨1, _⟩ => show win0_2.index t (1 : Fin 2) * 1024 + 1 * q.val = (k 1).val; omega

/-- What point t writes back is block t of `gridScores` of the arrays the windows read. -/
theorem written_block (c : Dev nD) (t : Fin cfg0.N) :
    (dats m 0 c).flushed 3 t
      = ((cfg0.win 3).blk t).view.read (Elt Ideal) (gridScores (inArr m c) (noiseArr m c) (biasArr m c)) := by
  show (cfg0.win 3).cut (grid0.coords t) ((dats m 0 c).after 3 t) = _
  rw [after0_3]
  unfold out0_3
  rw [View.canon_unit_zero origin2]
  simp only [View.ld_unit_zero (S := S1024x1024) origin2, View.ld_unit_zero (S := S1x1024) origin2]
  obtain ⟨e0, e1, e2, e3, e4, e5, e6, e7⟩ := block_indices t
  funext j
  obtain ⟨p, q, rfl⟩ : ∃ (p : Fin 1024) (q : Fin 1024), j = ix2 p q := ⟨j 0, j 1, eq_ix2 j⟩
  refine (stored_at (iblk m c 0 t) (iblk m c 1 t) (iblk m c 2 t) p q).trans ?_
  rw [View.read_apply]
  unfold gridScores
  have hi0 : ((((cfg0.win 3).blk t).view.emb (ix2 p q)) 0).val = win0_3.index t (0 : Fin 2) * 1024 + 1 * p.val := rfl
  have hi1 : ((((cfg0.win 3).blk t).view.emb (ix2 p q)) 1).val = win0_3.index t (1 : Fin 2) * 1024 + 1 * q.val := rfl
  refine congrArg Ideal.exp (congrArg₂ (· + ·) (Finset.sum_congr rfl fun h _ => congrArg₂ (· * ·) ?_ ?_) ?_)
  · refine in_block_at m c t p h _ ?_ ?_
    · show ((((cfg0.win 3).blk t).view.emb (ix2 p q)) 0).val = _; rw [hi0]; omega
    · show h.val = _; omega
  · refine noise_block_at m c t q h _ ?_ ?_
    · show ((((cfg0.win 3).blk t).view.emb (ix2 p q)) 1).val = _; rw [hi1]; omega
    · show h.val = _; omega
  · refine bias_block_at m c t q _ ?_ ?_
    · show 0 = _; omega
    · show ((((cfg0.win 3).blk t).view.emb (ix2 p q)) 1).val = _; rw [hi1]; omega

/-- An index of the result is in point t's block iff each coordinate is in the block's range. -/
theorem mem_block (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v42).slice (win0_3.rect t)).set ↔ _
  rw [View.set_slice_whole, Rect.mem_set_unit]
  exact Iff.rfl

/-- The 32 blocks cover the result: entry (n, k) is in the block of point (n / 1024, k / 1024). -/
theorem blocks_cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := block_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The result array after the grid: `gridScores` of the arrays the windows read. -/
theorem grid_result (c : Dev nD) :
    (dats m 0 c).arrAt 3 cfg0.N = gridScores (inArr m c) (noiseArr m c) (biasArr m c) :=
  (dats m 0 c).arrAt_eq_of_cover 3 _ (fun t _ => written_block m c t) blocks_cover

end Cert.KernelIdeal.Hand

end
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.Score.lean ====
/-
  The noise scores. For an input matrix a : [8192, 1024], a matrix of noise rows w : [4096, 1024] and one bias per
  noise row b : [4096], the score of input row n against noise row k is

      exp ( sum over h of a(n, h) · w(k, h)  +  b(k) )

  over the extended reals. This file states that number once (`score`) and shows that the reference's chain of host
  operations — a product contracting both operands' columns, the bias broadcast first to a row and then down the
  rows, a sum, an exponential — has that number at every entry. Only commutativity-free re-indexing is used: the sum
  is the same sum, read through the shared axis's coordinate, so no finiteness of the inputs is needed.
-/
import Idealize.ShloMosaic.PureOps.Ideal
import Idealize.ShloMosaic.PureOps.Ideal.Laws
import Idealize.ShloMosaic.Lib.ValueIdx
import Idealize.ShloMosaic.Lib.Pipeline.Value
import proofs.«166115_j32744830664773_1_alg».proof.Proof.LibDotT

noncomputable section

open scoped BigOperators

namespace Cert.Nce

open Idealize.ShloMosaic Idealize.ShloMosaic.ValueIdx

/-- The score of input row `n` against noise row `k`: the exponential of their inner product plus the row's bias. -/
def score (a : FVec Ideal ⟨2, ![8192, 1024]⟩ .f32) (w : FVec Ideal ⟨2, ![4096, 1024]⟩ .f32)
    (b : FVec Ideal ⟨1, ![4096]⟩ .f32) (n : Fin 8192) (k : Fin 4096) : EReal :=
  Ideal.exp ((∑ h : Fin 1024, a (ix2 n h) * w (ix2 k h)) + b (ix1 k))

/-- All scores, as one array indexed by (input row, noise row). -/
def scores (a : FVec Ideal ⟨2, ![8192, 1024]⟩ .f32) (w : FVec Ideal ⟨2, ![4096, 1024]⟩ .f32)
    (b : FVec Ideal ⟨1, ![4096]⟩ .f32) : FVec Ideal ⟨2, ![8192, 4096]⟩ .f32 :=
  fun i => score a w b (i 0) (i 1)

/-- The bias broadcast to a row and then down all rows reads, at (n, k), the bias of noise row k. -/
theorem bias_bcast_at (b : FVec Ideal ⟨1, ![4096]⟩ .f32)
    (h1 : (⟨1, ![4096]⟩ : Shape).BroadcastsInDim (⟨2, ![1, 4096]⟩ : Shape) ![1])
    (h2 : (⟨2, ![1, 4096]⟩ : Shape).BroadcastsInDim (⟨2, ![8192, 4096]⟩ : Shape) ![0, 1]) (n : Fin 8192) (k : Fin 4096) :
    broadcastInDim (⟨2, ![8192, 4096]⟩ : Shape) ![0, 1] h2 (broadcastInDim (⟨2, ![1, 4096]⟩ : Shape) ![1] h1 b) (ix2 n k)
      = b (ix1 k) := by
  refine (broadcastInDim_apply _ h2 _ _ (ix2 (0 : Fin 1) k) fun ax => ?_).trans
    (broadcastInDim_apply _ h1 b _ (ix1 k) fun ax => ?_)
  · match ax with
    | ⟨0, _⟩ => show 0 = if (1 : Nat) = 1 then 0 else n.val; rw [if_pos rfl]
    | ⟨1, _⟩ => show k.val = if (4096 : Nat) = 1 then 0 else k.val; rw [if_neg (by decide)]
  · match ax with
    | ⟨0, _⟩ => show k.val = if (4096 : Nat) = 1 then 0 else k.val; rw [if_neg (by decide)]

/-- The reference's chain of operations is the array of scores: a product that contracts the columns of both
    operands is, entry by entry, the inner product of a row of the input with a noise row. -/
theorem host_chain_eq_scores (d : DotDims ⟨2, ![8192, 1024]⟩ ⟨2, ![4096, 1024]⟩ ⟨2, ![8192, 4096]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision)
    (h1 : (⟨1, ![4096]⟩ : Shape).BroadcastsInDim (⟨2, ![1, 4096]⟩ : Shape) ![1])
    (h2 : (⟨2, ![1, 4096]⟩ : Shape).BroadcastsInDim (⟨2, ![8192, 4096]⟩ : Shape) ![0, 1])
    (a : FVec Ideal ⟨2, ![8192, 1024]⟩ .f32) (w : FVec Ideal ⟨2, ![4096, 1024]⟩ .f32) (b : FVec Ideal ⟨1, ![4096]⟩ .f32) :
    Host.exp (addf (Host.dotGeneral d prec a w)
        (broadcastInDim (⟨2, ![8192, 4096]⟩ : Shape) ![0, 1] h2 (broadcastInDim (⟨2, ![1, 4096]⟩ : Shape) ![1] h1 b)))
      = scores a w b := by
  funext i
  obtain ⟨n, k, rfl⟩ : ∃ (n : Fin 8192) (k : Fin 4096), i = ix2 n k := ⟨i 0, i 1, eq_ix2 i⟩
  show Ideal.exp (FloatOps.dotGeneral d prec .single a w (ix2 n k) + _) = Ideal.exp (_ + _)
  rw [Ideal.dotGeneral_apply, Cert.LibDotT.contr_sum_T d hl hr hln hrn hlb hrb a w n k, bias_bcast_at b h1 h2 n k]

end Cert.Nce

end
-- ==== Proof.KernelRun.lean ====
/-
  The kernel program's run, read. Its four results, as functions of the six argument arrays as launched:
  the two per-target results are what the host prefix computes (named here by the prefix's own terms); the grid's
  result is the array of scores of the input against the gathered noise rows and noise biases — narrowing a float to
  the short format is the identity over the extended reals, and a vector recast as a one-row matrix reads the vector's
  entry at the column —; the last result is the gathered noise probabilities spread over all rows.
-/
import proofs.«166115_j32744830664773_1_alg».proof.Proof.HostSide
import proofs.«166115_j32744830664773_1_alg».proof.Proof.Blocks
import proofs.«166115_j32744830664773_1_alg».proof.Proof.Score

noncomputable section

open scoped BigOperators

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- The target indices as the gathers take them: an index below zero moved up by 50257, as a one-column matrix. -/
def targetIdx {F : FTy → Type} [FloatOps F] (x4 : (⟨S8192, .i32⟩ : BufTy).Contents (Elt F)) : (⟨S8192x1, .i32⟩ : BufTy).Contents (Elt F) :=
  broadcastInDim S8192x1 ![0] bcast_S8192_S8192x1_0
    (select (cmpi .slt x4 (broadcastInDim S8192 ![] bcast_S_S8192 (constantI S_ 32 0#32)))
      (addi x4 (broadcastInDim S8192 ![] bcast_S_S8192 (constantI S_ 32 50257#32))) x4)

/-- The score of each input row against its own target row: the exponential of their inner product plus the
    target's bias, as the host prefix writes it. -/
def targetScore {F : FTy → Type} [FloatOps F] (x0 : (⟨S8192x1024, .f32⟩ : BufTy).Contents (Elt F)) (x1 : (⟨S50257x1024, .f32⟩ : BufTy).Contents (Elt F))
    (x2 : (⟨S50257, .f32⟩ : BufTy).Contents (Elt F)) (x4 : (⟨S8192, .i32⟩ : BufTy).Contents (Elt F)) : (⟨S8192, .f32⟩ : BufTy).Contents (Elt F) :=
  Host.exp (addf (Host.reduceAdd (mulf x0 (Host.gather gather_S50257x1024_S8192x1_S8192x1024_1_0_n_n_0_1_11024 x1 (targetIdx x4)))
      (constant S_ .f32 0x00000000#32) reducesTo_S8192x1024_S8192_d1 h_S_)
    (Host.gather gather_S50257_S8192x1_S8192_n_0_n_n_0_1_1 x2 (targetIdx x4)))

/-- The unigram probability of each target. -/
def targetProb {F : FTy → Type} [FloatOps F] (x3 : (⟨S50257, .f32⟩ : BufTy).Contents (Elt F)) (x4 : (⟨S8192, .i32⟩ : BufTy).Contents (Elt F)) :
    (⟨S8192, .f32⟩ : BufTy).Contents (Elt F) :=
  Host.gather gather_S50257_S8192x1_S8192_n_0_n_n_0_1_1 x3 (targetIdx x4)

variable (m : (ℓ : Loc nD τ sig) → Buf (Elt Ideal) ℓ) (ρ : Dev nD → PrngReg)

set_option maxHeartbeats 4000000 in
/-- The first result as the host prefix leaves it. -/
theorem prefix_target_score (c : Dev nD) :
    V m c main_v17 = targetScore (m ((c : Thread nD τ).loc main_arg0)) (m ((c : Thread nD τ).loc main_arg1))
      (m ((c : Thread nD τ).loc main_arg2)) (m ((c : Thread nD τ).loc main_arg4)) := by
  show StableHlo.after hostOps0 (fun b => m (c, b)) (Proc.devRef .tc main_v17) = _
  after_results <;> rfl

set_option maxHeartbeats 4000000 in
/-- The second result as the host prefix leaves it. -/
theorem prefix_target_prob (c : Dev nD) :
    V m c main_v24 = targetProb (m ((c : Thread nD τ).loc main_arg3)) (m ((c : Thread nD τ).loc main_arg4)) := by
  show StableHlo.after hostOps0 (fun b => m (c, b)) (Proc.devRef .tc main_v24) = _
  after_results <;> rfl

/-- Over the extended reals the grid's function of the narrowed input, the narrowed noise rows and the one-row bias
    is the array of scores of the input, the noise rows and the noise biases. -/
theorem gridScores_eq_scores (a : (⟨S8192x1024, .f32⟩ : BufTy).Contents (Elt Ideal)) (w : (⟨S4096x1024, .f32⟩ : BufTy).Contents (Elt Ideal))
    (b : (⟨S4096, .f32⟩ : BufTy).Contents (Elt Ideal)) :
    gridScores (truncf (F := Ideal) .bf16 a bitsLt_bf16_f32) (truncf (F := Ideal) .bf16 w bitsLt_bf16_f32) (shapeCast S1x4096 b shapeCasts_S4096_S1x4096)
      = Cert.Nce.scores a w b := by
  funext i
  refine congrArg Ideal.exp (congrArg₂ (· + ·) rfl ?_)
  refine shapeCast_apply b shapeCasts_S4096_S1x4096 (ix2 (0 : Fin 1) (i 1)) (ix1 (i 1)) ?_
  rw [Shape.rowMajor_val_two, Shape.rowMajor_val_one]
  show (i 1).val = 0 * 4096 + (i 1).val
  omega

/-- The grid's result array, from the argument arrays. -/
theorem grid_scores (c : Dev nD) :
    (dats m 0 c).arrAt 3 cfg0.N
      = Cert.Nce.scores (m ((c : Thread nD τ).loc main_arg0))
          (noiseRows (m ((c : Thread nD τ).loc main_arg1)) (m ((c : Thread nD τ).loc main_arg5)))
          (noiseEntries (m ((c : Thread nD τ).loc main_arg2)) (m ((c : Thread nD τ).loc main_arg5))) := by
  rw [grid_result]
  show gridScores (V m c main_v39) (V m c main_v40) (V m c main_v41) = _
  rw [entry_input, entry_noise, entry_bias]
  exact gridScores_eq_scores _ _ _

/-- The run of the kernel program: every weakly fair execution ends with the four results at these functions of the
    arguments, and the arguments unchanged. -/
theorem run : θ_run defs (onTc (τ := τ) (main (F := Ideal))) ⟨m, fun _ => 0, ρ⟩ fun r => ∀ c : Dev nD,
      r.2.mem ((c.tc : Thread nD τ).loc main_v17) = V m c main_v17
      ∧ r.2.mem ((c.tc : Thread nD τ).loc main_v24) = V m c main_v24
      ∧ r.2.mem ((c.tc : Thread nD τ).loc main_v42)
          = Cert.Nce.scores (m ((c : Thread nD τ).loc main_arg0))
              (noiseRows (m ((c : Thread nD τ).loc main_arg1)) (m ((c : Thread nD τ).loc main_arg5)))
              (noiseEntries (m ((c : Thread nD τ).loc main_arg2)) (m ((c : Thread nD τ).loc main_arg5)))
      ∧ r.2.mem ((c.tc : Thread nD τ).loc main_v51)
          = noiseProb (m ((c : Thread nD τ).loc main_arg3)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v17 (Pipeline.mem_restRefs_of main_v17 (by decide) (by decide))).trans (tail_target_score m c),
      ((h c).2 main_v24 (Pipeline.mem_restRefs_of main_v24 (by decide) (by decide))).trans (tail_target_prob m c),
      ((h c).1 3).trans (grid_scores m c),
      ((h c).2 main_v51 (Pipeline.mem_restRefs_of main_v51 (by decide) (by decide))).trans (tail_noise_prob m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Hand

end
-- ==== Proof.lean ====
/-
  Noise-contrastive scores: the kernel program against its reference, over the extended reals.

  Both programs return four arrays. Three of them — the score of each input row against its target row, the unigram
  probability of each target, and the unigram probabilities of the noise rows spread over all input rows — are
  computed by the same host operations on both sides. The fourth, the [8192, 4096] array of scores of every input
  row against every noise row, is computed on the kernel side by an 8 × 4 grid of blocks, each the exponential of a
  product of 1024 input rows with 1024 noise rows (contracting the columns of both) plus the noise biases, and on the
  reference side by one product over the whole arrays, a broadcast bias, a sum and an exponential. Entry (n, k) of
  both is exp( sum over h of input(n, h) · noise(k, h) + bias(k) ): the same sum of the same terms, so the two are
  equal on every extended real and the inputs' finiteness is not used.
-/
import proofs.«166115_j32744830664773_1_alg».proof.Defs
import proofs.«166115_j32744830664773_1_alg».proof.Proof.Gen.Kernel
import proofs.«166115_j32744830664773_1_alg».proof.Proof.Gen.Kernel.Frame
import proofs.«166115_j32744830664773_1_alg».proof.Proof.Gen.KernelIdeal
import proofs.«166115_j32744830664773_1_alg».proof.Proof.Gen.KernelIdeal.Frame
import proofs.«166115_j32744830664773_1_alg».proof.Proof.Gen.ReferenceIdeal
import proofs.«166115_j32744830664773_1_alg».proof.Proof.Gen.Pre_finite_inputs
import proofs.«166115_j32744830664773_1_alg».proof.Proof.Gen.ReferenceIdeal.Run
import proofs.«166115_j32744830664773_1_alg».proof.Proof.KernelRun
import proofs.«166115_j32744830664773_1_alg».proof.Proof.Score
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no grid: its frame is its run with the results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- The two programs end with equal results. The kernel's run names its results by functions of its arguments; the
    reference's run states its results as the host operations' composed terms; from agreeing arguments the three
    host-only results are the same terms, and the array of noise scores is the same array, entry by entry. -/
theorem algebraic : Cert.algebraic_KernelIdeal_ReferenceIdeal := by
  intro m ρ m' ρ' _ hagree
  refine ⟨fun c => Cert.KernelIdeal.Gen.V m c Cert.KernelIdeal.main_v17, fun c => Cert.KernelIdeal.Gen.V m c Cert.KernelIdeal.main_v24, _, _,
    Cert.KernelIdeal.Hand.run m ρ, ?_⟩
  refine (θ_run Cert.ReferenceIdeal.defs _ _).mono (fun _ h c => ?_) (Cert.ReferenceIdeal.Value.run (F := Ideal) m' ρ')
  obtain ⟨h0, h1, h2, h3, hargs⟩ := h c
  obtain ⟨a0, a1, a2, a3, a4, a5⟩ := hagree c
  refine ⟨h0.trans ?_, h1.trans ?_, h2.trans ?_, h3.trans ?_, hargs⟩
  · rw [a0, a1, a2, a4]
    exact (Cert.KernelIdeal.Hand.prefix_target_score m c).symm
  · rw [a3, a4]
    exact (Cert.KernelIdeal.Hand.prefix_target_prob m c).symm
  · rw [a0, a1, a2, a5]
    exact Cert.Nce.host_chain_eq_scores Cert.ReferenceIdeal.dot_S8192x1024_S4096x1024_S8192x4096_1_1_0_0_n_n rfl rfl rfl rfl rfl rfl none
      _ _ _ _ _
  · rw [a3, a5]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
